-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64 .f32) (main_arg9 : FVec F S64x1 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S1024x256 .f32) (main_arg1 : FVec F S256x256 .f32) (main_arg2 : IVec S256 32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S32x256 : Shape := ⟨2, ![32, 256]⟩
abbrev S1x1x256 : Shape := ⟨3, ![1, 1, 256]⟩
abbrev S32x1x256 : Shape := ⟨3, ![32, 1, 256]⟩
abbrev S1x256x256 : Shape := ⟨3, ![1, 256, 256]⟩
abbrev S32x256x256 : Shape := ⟨3, ![32, 256, 256]⟩
abbrev S8192x256 : Shape := ⟨2, ![8192, 256]⟩
abbrev S8192x128 : Shape := ⟨2, ![8192, 128]⟩
abbrev S1x128 : Shape := ⟨2, ![1, 128]⟩
abbrev S8192x64 : Shape := ⟨2, ![8192, 64]⟩
abbrev S32x256x64 : Shape := ⟨3, ![32, 256, 64]⟩
abbrev S1x1x64 : Shape := ⟨3, ![1, 1, 64]⟩
abbrev S1x1 : Shape := ⟨2, ![1, 1]⟩

abbrev nBuf : Space → Nat
  | .hbm => 22
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S256x256, .f32⟩
  | .hbm, ⟨12, _⟩ => ⟨S256x256, .f32⟩
  | .hbm, ⟨13, _⟩ => ⟨S64, .f32⟩
  | .hbm, ⟨14, _⟩ => ⟨S1x64, .f32⟩
  | .hbm, ⟨15, _⟩ => ⟨S1024x256, .bf16⟩
  | .hbm, ⟨16, _⟩ => ⟨S256x256, .bf16⟩
  | .hbm, ⟨17, _⟩ => ⟨S256x256, .bf16⟩
  | .hbm, ⟨18, _⟩ => ⟨S256x256, .bf16⟩
  | .hbm, ⟨19, _⟩ => ⟨S256x128, .bf16⟩
  | .hbm, ⟨20, _⟩ => ⟨S128x64, .bf16⟩
  | .hbm, ⟨21, _⟩ => ⟨S1024x256, .f32⟩
  | .local _ .vmem, ⟨0, _⟩ => ⟨S32x256, .bf16⟩
  | .local _ .vmem, ⟨1, _⟩ => ⟨S32x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S128x64, .bf16⟩
  | .local _ .vmem, ⟨9, _⟩ => ⟨S64, .f32⟩
  | .local _ .vmem, ⟨10, _⟩ => ⟨S1x64, .f32⟩
  | .local _ .vmem, ⟨11, _⟩ => ⟨S1, .f32⟩
  | .local _ .vmem, ⟨12, _⟩ => ⟨S32x256, .f32⟩
  | .local _ .vmem, ⟨13, _⟩ => ⟨S32x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S512x256_S256x256_0_0 : S512x256.Slices ![0, 0] S256x256
  slices_S512x256_S256x256_256_0 : S512x256.Slices ![256, 0] S256x256
  shapeCasts_S64x1_S64 : S64x1.ShapeCasts S64
  shapeCasts_S64_S1x64 : S64.ShapeCasts S1x64
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x1x256 : S256.ShapeCasts S1x1x256
  shapeCasts_S32x256_S32x1x256 : S32x256.ShapeCasts S32x1x256
  shapeCasts_S256x256_S1x256x256 : S256x256.ShapeCasts S1x256x256
  broadcasts_S32x1x256_S32x256x256 : S32x1x256.Broadcasts S32x256x256
  broadcasts_S1x256x256_S32x256x256 : S1x256x256.Broadcasts S32x256x256
  broadcasts_S1x1x256_S32x256x256 : S1x1x256.Broadcasts S32x256x256
  shapeCasts_S32x256x256_S8192x256 : S32x256x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  broadcasts_S1x64_S8192x64 : S1x64.Broadcasts S8192x64
  shapeCasts_S8192x64_S32x256x64 : S8192x64.ShapeCasts S32x256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  inb_S1_S1_0 : ∀ a, (![0] : Fin 1 → Nat) a + S1.size a ≤ S1.size a
  h_S1 : 0 < S1.numel
  shapeCasts_S1_S1x1 : S1.ShapeCasts S1x1
  broadcasts_S1x1x64_S32x256x64 : S1x1x64.Broadcasts S32x256x64
  reduces_S32x256x64_S32x256 : S32x256x64.Reduces [2] S32x256
  broadcasts_S1x1_S32x256 : S1x1.Broadcasts S32x256
  dot_S32x256_S256x256_S32x256_1_0_0_1_n_n_wf : DotDims.WF S32x256 S256x256 S32x256 [1] [0] [0] [1] [] []
  dot_S256x256_S256x256_S256x256_1_0_0_1_n_n_wf : DotDims.WF S256x256 S256x256 S256x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .bf16 = 32 ∨ (Rect.block (s := S1024x256) S32x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x256.size a ≤ S1024x256.size a
  hwx0_11 : ∀ i : grid0.Coords, EltTy.bits .f32 = 32 ∨ (Rect.block (s := S1024x256) S32x256.size (cc0_transform_11 i) (hinb0_11 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

abbrev win0_0 : Pipeline.Window sig grid0 :=
  Pipeline.Window.ofSpec (Memref.whole main_v4) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S32x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S256 : Shape := ⟨1, ![256]⟩
abbrev S512x256 : Shape := ⟨2, ![512, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1024x1x256 : Shape := ⟨3, ![1024, 1, 256]⟩
abbrev S1024x256x256 : Shape := ⟨3, ![1024, 256, 256]⟩
abbrev S1x256x256 : Shape := ⟨3, ![1, 256, 256]⟩
abbrev S1024x256x512 : Shape := ⟨3, ![1024, 256, 512]⟩
abbrev S262144x512 : Shape := ⟨2, ![262144, 512]⟩
abbrev S262144x256 : Shape := ⟨2, ![262144, 256]⟩
abbrev S1x256 : Shape := ⟨2, ![1, 256]⟩
abbrev S_ : Shape := ⟨0, ![]⟩
abbrev S262144x128 : Shape := ⟨2, ![262144, 128]⟩
abbrev S1x128 : Shape := ⟨2, ![1, 128]⟩
abbrev S262144x64 : Shape := ⟨2, ![262144, 64]⟩
abbrev S1x64 : Shape := ⟨2, ![1, 64]⟩
abbrev S262144x1 : Shape := ⟨2, ![262144, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1024x1x256, .f32⟩
  | .hbm, ⟨12, _⟩ => ⟨S1024x256x256, .f32⟩
  | .hbm, ⟨13, _⟩ => ⟨S1x256x256, .f32⟩
  | .hbm, ⟨14, _⟩ => ⟨S1024x256x256, .f32⟩
  | .hbm, ⟨15, _⟩ => ⟨S1024x256x512, .f32⟩
  | .hbm, ⟨16, _⟩ => ⟨S262144x512, .f32⟩
  | .hbm, ⟨17, _⟩ => ⟨S262144x256, .f32⟩
  | .hbm, ⟨18, _⟩ => ⟨S1x256, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S262144x256, .f32⟩
  | .hbm, ⟨23, _⟩ => ⟨S262144x256, .f32⟩
  | .hbm, ⟨24, _⟩ => ⟨S262144x128, .f32⟩
  | .hbm, ⟨25, _⟩ => ⟨S1x128, .f32⟩
  | .hbm, ⟨26, _⟩ => ⟨S262144x128, .f32⟩
  | .hbm, ⟨27, _⟩ => ⟨S262144x128, .f32⟩
  | .hbm, ⟨28, _⟩ => ⟨S_, .f32⟩
  | .hbm, ⟨29, _⟩ => ⟨S262144x128, .f32⟩
  | .hbm, ⟨30, _⟩ => ⟨S262144x128, .f32⟩
  | .hbm, ⟨31, _⟩ => ⟨S262144x64, .f32⟩
  | .hbm, ⟨32, _⟩ => ⟨S1x64, .f32⟩
  | .hbm, ⟨33, _⟩ => ⟨S262144x64, .f32⟩
  | .hbm, ⟨34, _⟩ => ⟨S262144x64, .f32⟩
  | .hbm, ⟨35, _⟩ => ⟨S_, .f32⟩
  | .hbm, ⟨36, _⟩ => ⟨S262144x64, .f32⟩
  | .hbm, ⟨37, _⟩ => ⟨S262144x64, .f32⟩
  | .hbm, ⟨38, _⟩ => ⟨S262144x1, .f32⟩
  | .hbm, ⟨39, _⟩ => ⟨S1x1, .f32⟩
  | .hbm, ⟨40, _⟩ => ⟨S262144x1, .f32⟩
  | .hbm, ⟨41, _⟩ => ⟨S262144x1, .f32⟩
  | .hbm, ⟨42, _⟩ => ⟨S262144x1, .f32⟩
  | .hbm, ⟨43, _⟩ => ⟨S262144x1, .f32⟩
  | .hbm, ⟨44, _⟩ => ⟨S_, .f32⟩
  | .hbm, ⟨45, _⟩ => ⟨S262144x1, .f32⟩
  | .hbm, ⟨46, _⟩ => ⟨S262144x1, .f32⟩
  | .hbm, ⟨47, _⟩ => ⟨S_, .f32⟩
  | .hbm, ⟨48, _⟩ => ⟨S262144x1, .f32⟩
  | .hbm, ⟨49, _⟩ => ⟨S262144x1, .f32⟩
  | .hbm, ⟨50, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_cst : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_cst : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x1x256_S1024x256x256_0_1_2 : S1024x1x256.BroadcastsInDim S1024x256x256 (![0, 1, 2] : Fin 3 → Fin S1024x256x256.rank)
  bcast_S256x256_S1x256x256_1_2 : S256x256.BroadcastsInDim S1x256x256 (![1, 2] : Fin 2 → Fin S1x256x256.rank)
  bcast_S1x256x256_S1024x256x256_0_1_2 : S1x256x256.BroadcastsInDim S1024x256x256 (![0, 1, 2] : Fin 3 → Fin S1024x256x256.rank)
  concatenates_S1024x256x256_S1024x256x256_S1024x256x512_d2 : Shape.Concatenates [S1024x256x256, S1024x256x256] S1024x256x512 2
  shapeCasts_S1024x256x512_S262144x512 : S1024x256x512.ShapeCasts S262144x512
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  shapeCasts_S262144x1_S1024x256 : S262144x1.ShapeCasts S1024x256
  dot_S262144x512_S512x256_S262144x256_1_0_0_1_n_n_wf : DotDims.WF S262144x512 S512x256 S262144x256 [1] [0] [0] [1] [] []
  dot_S262144x256_S256x128_S262144x128_1_0_0_1_n_n_wf : DotDims.WF S262144x256 S256x128 S262144x128 [1] [0] [0] [1] [] []
  dot_S262144x128_S128x64_S262144x64_1_0_0_1_n_n_wf : DotDims.WF S262144x128 S128x64 S262144x64 [1] [0] [0] [1] [] []
  dot_S262144x64_S64x1_S262144x1_1_0_0_1_n_n_wf : DotDims.WF S262144x64 S64x1 S262144x1 [1] [0] [0] [1] [] []

variable [Facts₀]

def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.Spec.lean ====
/-
  The relation score of one query row against one support row, and the array of all scores.

  For a query row q and a support row s, each of 256 numbers, the network computes

      h1_c = relu( Σ_k q_k · A_{k,c}  +  Σ_k s_k · B_{k,c}  +  b1_c )        c < 256
      h2_c = relu( Σ_k h1_k · W2_{k,c} + b2_c )                              c < 128
      h3_c = relu( Σ_k h2_k · W3_{k,c} + b3_c )                              c < 64
      out  = σ( Σ_k h3_k · w4_k + b4 ),        σ(x) = 1 / (1 + e^{-x}),      relu(x) = max(x, 0),

  where A and B are the upper and the lower 256 rows of the first layer's 512 × 256 weight matrix W1.  The first layer
  is the product of the concatenated row [q, s] with W1: a sum of 512 products is the sum of its first 256 and its
  last 256 (addition of extended reals is associative and commutative, so no finiteness is needed), and the first 256
  products only see q and A, the last 256 only s and B.

  Everything is over the extended reals; the index types are the literal ones.
-/
import Idealize.ShloMosaic.PureOps.Ideal
import Idealize.ShloMosaic.Lib.ValueIdx

noncomputable section

namespace PairScore

open Idealize.ShloMosaic Idealize.ShloMosaic.ValueIdx

/-- The rectifier on the extended reals. -/
def relu (x : EReal) : EReal := max x 0

/-- One output of an affine layer: the inner product of the input row with column c of the weights, plus the bias. -/
def dense {K C : Nat} (x : Fin K → EReal) (W : Fin K → Fin C → EReal) (b : Fin C → EReal) (c : Fin C) : EReal :=
  (∑ k : Fin K, x k * W k c) + b c

/-- The first hidden layer, with the weight matrix already cut into the rows that meet the query (A) and the rows
    that meet the support (B). -/
def hidden1 (q s : Fin 256 → EReal) (A B : Fin 256 → Fin 256 → EReal) (b1 : Fin 256 → EReal) (c : Fin 256) : EReal :=
  relu (((∑ k : Fin 256, q k * A k c) + (∑ k : Fin 256, s k * B k c)) + b1 c)

/-- The second hidden layer. -/
def hidden2 (q s : Fin 256 → EReal) (A B : Fin 256 → Fin 256 → EReal) (b1 : Fin 256 → EReal)
    (W2 : Fin 256 → Fin 128 → EReal) (b2 : Fin 128 → EReal) (c : Fin 128) : EReal :=
  relu (dense (hidden1 q s A B b1) W2 b2 c)

/-- The third hidden layer. -/
def hidden3 (q s : Fin 256 → EReal) (A B : Fin 256 → Fin 256 → EReal) (b1 : Fin 256 → EReal)
    (W2 : Fin 256 → Fin 128 → EReal) (b2 : Fin 128 → EReal) (W3 : Fin 128 → Fin 64 → EReal) (b3 : Fin 64 → EReal)
    (c : Fin 64) : EReal :=
  relu (dense (hidden2 q s A B b1 W2 b2) W3 b3 c)

/-- The score: the logistic function of the last layer's one output. -/
def score (q s : Fin 256 → EReal) (A B : Fin 256 → Fin 256 → EReal) (b1 : Fin 256 → EReal)
    (W2 : Fin 256 → Fin 128 → EReal) (b2 : Fin 128 → EReal) (W3 : Fin 128 → Fin 64 → EReal) (b3 : Fin 64 → EReal)
    (w4 : Fin 64 → EReal) (b4 : EReal) : EReal :=
  Ideal.logistic ((∑ k : Fin 64, hidden3 q s A B b1 W2 b2 W3 b3 k * w4 k) + b4)

/-- A sum over 512 terms is the sum of the first 256 and of the last 256. -/
theorem sum_split (f : Fin 512 → EReal) :
    ∑ k : Fin 512, f k
      = (∑ k : Fin 256, f ⟨k.val, by omega⟩) + ∑ k : Fin 256, f ⟨256 + k.val, by omega⟩ :=
  Fin.sum_univ_add (M := EReal) (a := 256) (b := 256) f

/-- Row i of a two-axis array, as a function of the column. -/
abbrev row {n0 n1 : Nat} (X : (⟨2, ![n0, n1]⟩ : Shape).Idx → EReal) (i : Fin n0) : Fin n1 → EReal :=
  fun k => X (ix2 i k)

/-- The upper 256 rows of the first layer's weights. -/
abbrev upper (W1 : (⟨2, ![512, 256]⟩ : Shape).Idx → EReal) : Fin 256 → Fin 256 → EReal :=
  fun k c => W1 (ix2 (⟨k.val, by omega⟩ : Fin 512) c)

/-- The lower 256 rows of the first layer's weights. -/
abbrev lower (W1 : (⟨2, ![512, 256]⟩ : Shape).Idx → EReal) : Fin 256 → Fin 256 → EReal :=
  fun k c => W1 (ix2 (⟨256 + k.val, by omega⟩ : Fin 512) c)

/-- The score of query row p against support row j, from the ten float argument arrays. -/
def scoreAt (X : (⟨2, ![1024, 256]⟩ : Shape).Idx → EReal) (S : (⟨2, ![256, 256]⟩ : Shape).Idx → EReal)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (W4 : (⟨2, ![64, 1]⟩ : Shape).Idx → EReal) (b4 : (⟨1, ![1]⟩ : Shape).Idx → EReal)
    (p : Fin 1024) (j : Fin 256) : EReal :=
  score (row X p) (row S j) (upper W1) (lower W1) (fun c => b1 (ix1 c))
    (fun k c => W2 (ix2 k c)) (fun c => b2 (ix1 c)) (fun k c => W3 (ix2 k c)) (fun c => b3 (ix1 c))
    (fun k => W4 (ix2 k (0 : Fin 1))) (b4 (ix1 (0 : Fin 1)))

/-- The 1024 × 256 array of all scores. -/
def G (X : (⟨2, ![1024, 256]⟩ : Shape).Idx → EReal) (S : (⟨2, ![256, 256]⟩ : Shape).Idx → EReal)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (W4 : (⟨2, ![64, 1]⟩ : Shape).Idx → EReal) (b4 : (⟨1, ![1]⟩ : Shape).Idx → EReal) :
    (⟨2, ![1024, 256]⟩ : Shape).Idx → EReal :=
  fun i => scoreAt X S W1 b1 W2 b2 W3 b3 W4 b4 (i 0) (i 1)

theorem G_ix2 (X : (⟨2, ![1024, 256]⟩ : Shape).Idx → EReal) (S : (⟨2, ![256, 256]⟩ : Shape).Idx → EReal)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 64]⟩ : Shape).Idx → EReal) (b3 : (⟨1, ![64]⟩ : Shape).Idx → EReal)
    (W4 : (⟨2, ![64, 1]⟩ : Shape).Idx → EReal) (b4 : (⟨1, ![1]⟩ : Shape).Idx → EReal) (p : Fin 1024) (j : Fin 256) :
    G X S W1 b1 W2 b2 W3 b3 W4 b4 (ix2 p j) = scoreAt X S W1 b1 W2 b2 W3 b3 W4 b4 p j := rfl

end PairScore

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelLayers.lean ====
/-
  The three hidden layers as the kernel body computes them on one block of 32 query rows.

  The body forms q·A for the block's 32 query rows and s·B for all 256 support rows as two matrix products, adds them
  pairwise over a [32, 256, 256] array together with the first bias, rectifies, and flattens the pairs: row r = p·256 + j
  of the flattened [8192, 256] array belongs to query row p of the block and support row j.  Two more affine layers with
  a rectifier between them follow on the flattened rows.  Changes of float format are the identity on extended reals.

  Each stage below is read at an index and identified with the corresponding layer of the specification (PairScore).
  A matrix product into a zero accumulator at (p, c) is the sum over k of the left row p times the right column c.
-/
import proofs.«125596_j31885837205813_1_alg».proof.Proof.Gen.KernelIdeal.Skeleton
import proofs.«125596_j31885837205813_1_alg».proof.Proof.Spec
import proofs.«125596_j31885837205813_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Idealize.ShloMosaic Idealize.ShloMosaic.ValueIdx Cert.KernelIdeal Cert.KernelIdeal.Gen PairScore

/-- A matrix product into a zero accumulator, at (p, q): the sum over k of l(p, k) · r(k, q). -/
theorem matmul_zero_at {R K C : Nat} {φ₁ φ₂ : FTy} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    matmul d none l r (constant (F := Ideal) ⟨2, ![R, C]⟩ .f32 0x00000000#32) (ix2 p q)
      = ∑ k : Fin K, l (ix2 p k) * r (ix2 k q) :=
  (Ideal.matmul_constant_zero_apply d none l r (ix2 p q)).trans
    (PlainDot.sum_eq (M := EReal) d hlb hln hlc hrb hrn hrc l r p q)

variable (P0 : FVec Ideal S32x256 .bf16) (P1 P2 P3 : FVec Ideal S256x256 .bf16) (P4 : FVec Ideal S256 .f32)
  (P5 : FVec Ideal S256x128 .bf16) (P6 : FVec Ideal S128 .f32) (P7 : FVec Ideal S128x64 .bf16)

/-- The block's query rows times the upper half of the first weights. -/
def qA : FVec Ideal S32x256 .f32 :=
  matmul dot_S32x256_S256x256_S32x256_1_0_0_1_n_n none (shapeCast S32x256 P0 shapeCasts_S32x256_S32x256)
    (shapeCast S256x256 P2 shapeCasts_S256x256_S256x256) (constant S32x256 .f32 0x00000000#32)

/-- The support rows times the lower half of the first weights. -/
def sB : FVec Ideal S256x256 .f32 :=
  matmul dot_S256x256_S256x256_S256x256_1_0_0_1_n_n none (shapeCast S256x256 P1 shapeCasts_S256x256_S256x256)
    (shapeCast S256x256 P3 shapeCasts_S256x256_S256x256) (constant S256x256 .f32 0x00000000#32)

/-- The first layer before the rectifier, over (query row of the block, support row, unit). -/
def pre1 : FVec Ideal S32x256x256 .f32 :=
  addf (addf (broadcastTo S32x256x256 (shapeCast S32x1x256 (qA P0 P2) shapeCasts_S32x256_S32x1x256) broadcasts_S32x1x256_S32x256x256)
      (broadcastTo S32x256x256 (shapeCast S1x256x256 (sB P1 P3) shapeCasts_S256x256_S1x256x256) broadcasts_S1x256x256_S32x256x256))
    (broadcastTo S32x256x256 (shapeCast S1x1x256 P4 shapeCasts_S256_S1x1x256) broadcasts_S1x1x256_S32x256x256)

/-- The first hidden layer, the pairs flattened to 8192 rows. -/
def act1 : FVec Ideal S8192x256 .bf16 :=
  shapeCast S8192x256 (truncf .bf16 (maximumf (pre1 P0 P1 P2 P3 P4) (broadcast S32x256x256 (Scalar.ofBits .f32 0x00000000#32))) bitsLt_bf16_f32)
    shapeCasts_S32x256x256_S8192x256

/-- The second hidden layer from the first. -/
def act2 (a1 : FVec Ideal S8192x256 .bf16) : FVec Ideal S8192x128 .bf16 :=
  truncf .bf16 (maximumf (addf (matmul dot_S8192x256_S256x128_S8192x128_1_0_0_1_n_n none a1 (shapeCast S256x128 P5 shapeCasts_S256x128_S256x128) (constant S8192x128 .f32 0x00000000#32))
      (broadcastTo S8192x128 (shapeCast S1x128 P6 shapeCasts_S128_S1x128) broadcasts_S1x128_S8192x128))
    (broadcast S8192x128 (Scalar.ofBits .f32 0x00000000#32))) bitsLt_bf16_f32

/-- The third layer's products summed, before its bias and rectifier, from the second hidden layer. -/
def pre3 (a2 : FVec Ideal S8192x128 .bf16) : FVec Ideal S8192x64 .f32 :=
  matmul dot_S8192x128_S128x64_S8192x64_1_0_0_1_n_n none a2 (shapeCast S128x64 P7 shapeCasts_S128x64_S128x64) (constant S8192x64 .f32 0x00000000#32)

/-- The body's value before the last layer is these stages composed. -/
theorem pay2_eq : k0_pay2 (F := Ideal) P0 P1 P2 P3 P4 P5 P6 P7 = pre3 P7 (act2 P5 P6 (act1 P0 P1 P2 P3 P4)) := rfl

theorem qA_at (p : Fin 32) (c : Fin 256) : qA P0 P2 (ix2 p c) = ∑ k : Fin 256, P0 (ix2 p k) * P2 (ix2 k c) := by
  unfold qA
  refine (matmul_zero_at dot_S32x256_S256x256_S32x256_1_0_0_1_n_n rfl rfl rfl rfl rfl rfl _ _ p c).trans ?_
  simp only [shapeCast_self]

theorem sB_at (j : Fin 256) (c : Fin 256) : sB P1 P3 (ix2 j c) = ∑ k : Fin 256, P1 (ix2 j k) * P3 (ix2 k c) := by
  unfold sB
  refine (matmul_zero_at dot_S256x256_S256x256_S256x256_1_0_0_1_n_n rfl rfl rfl rfl rfl rfl _ _ j c).trans ?_
  simp only [shapeCast_self]

/-- The first layer before the rectifier at (p, j, c): the query row's share, the support row's share and the bias. -/
theorem pre1_at (p : Fin 32) (j : Fin 256) (c : Fin 256) :
    pre1 P0 P1 P2 P3 P4 (ix3 p j c) = (qA P0 P2 (ix2 p c) + sB P1 P3 (ix2 j c)) + P4 (ix1 c) := by
  have e1 : broadcastTo S32x256x256 (shapeCast S32x1x256 (qA P0 P2) shapeCasts_S32x256_S32x1x256) broadcasts_S32x1x256_S32x256x256 (ix3 p j c)
      = qA P0 P2 (ix2 p c) := by
    refine (broadcastTo_apply _ _ (ix3 p j c) (ix3 p (0 : Fin 1) c) (fun a => match a with
      | ⟨0, _⟩ => by show p.val = if (32 : Nat) = 1 then 0 else p.val; rw [if_neg (by decide)]
      | ⟨1, _⟩ => by show (0 : Nat) = if (1 : Nat) = 1 then 0 else j.val; rw [if_pos rfl]
      | ⟨2, _⟩ => by show c.val = if (256 : Nat) = 1 then 0 else c.val; rw [if_neg (by decide)])).trans ?_
    exact shapeCast_apply _ _ (ix3 p (0 : Fin 1) c) (ix2 p c) (by
      rw [Shape.rowMajor_val_two, Shape.rowMajor_val_three]
      show p.val * 256 + c.val = (p.val * 1 + 0) * 256 + c.val
      omega)
  have e2 : broadcastTo S32x256x256 (shapeCast S1x256x256 (sB P1 P3) shapeCasts_S256x256_S1x256x256) broadcasts_S1x256x256_S32x256x256 (ix3 p j c)
      = sB P1 P3 (ix2 j c) := by
    refine (broadcastTo_apply _ _ (ix3 p j c) (ix3 (0 : Fin 1) j c) (fun a => match a with
      | ⟨0, _⟩ => by show (0 : Nat) = if (1 : Nat) = 1 then 0 else p.val; rw [if_pos rfl]
      | ⟨1, _⟩ => by show j.val = if (256 : Nat) = 1 then 0 else j.val; rw [if_neg (by decide)]
      | ⟨2, _⟩ => by show c.val = if (256 : Nat) = 1 then 0 else c.val; rw [if_neg (by decide)])).trans ?_
    exact shapeCast_ab_1ab_apply (sB P1 P3) shapeCasts_S256x256_S1x256x256 (0 : Fin 1) j c
  have e3 : broadcastTo S32x256x256 (shapeCast S1x1x256 P4 shapeCasts_S256_S1x1x256) broadcasts_S1x1x256_S32x256x256 (ix3 p j c)
      = P4 (ix1 c) := by
    refine (broadcastTo_apply _ _ (ix3 p j c) (ix3 (0 : Fin 1) (0 : Fin 1) c) (fun a => match a with
      | ⟨0, _⟩ => by show (0 : Nat) = if (1 : Nat) = 1 then 0 else p.val; rw [if_pos rfl]
      | ⟨1, _⟩ => by show (0 : Nat) = if (1 : Nat) = 1 then 0 else j.val; rw [if_pos rfl]
      | ⟨2, _⟩ => by show c.val = if (256 : Nat) = 1 then 0 else c.val; rw [if_neg (by decide)])).trans ?_
    exact shapeCast_apply _ _ (ix3 (0 : Fin 1) (0 : Fin 1) c) (ix1 c) (by
      rw [Shape.rowMajor_val_one, Shape.rowMajor_val_three]
      show c.val = (0 * 1 + 0) * 256 + c.val
      omega)
  show (broadcastTo S32x256x256 _ _ (ix3 p j c) + broadcastTo S32x256x256 _ _ (ix3 p j c)) + broadcastTo S32x256x256 _ _ (ix3 p j c) = _
  rw [e1, e2, e3]

/-- Row r = p·256 + j of the flattened first hidden layer is the specification's first hidden layer of query row p of
    the block and support row j. -/
theorem act1_at (p : Fin 32) (j : Fin 256) (r : Fin 8192) (hr : r.val = p.val * 256 + j.val) (c : Fin 256) :
    act1 P0 P1 P2 P3 P4 (ix2 r c)
      = hidden1 (row P0 p) (row P1 j) (fun k c => P2 (ix2 k c)) (fun k c => P3 (ix2 k c)) (fun c => P4 (ix1 c)) c := by
  unfold act1
  refine (shapeCast_apply _ _ (ix2 r c) (ix3 p j c) (by
    rw [Shape.rowMajor_val_three, Shape.rowMajor_val_two]
    show (p.val * 256 + j.val) * 256 + c.val = r.val * 256 + c.val
    rw [hr])).trans ?_
  show max (pre1 P0 P1 P2 P3 P4 (ix3 p j c)) (Ideal.ofBits .f32 0x00000000#32) = _
  rw [pre1_at, qA_at, sB_at, Ideal.ofBits_zero_f32]
  rfl

/-- A bias vector laid as one row and broadcast down the rows reads the bias at the column. -/
theorem bias128_at (r : Fin 8192) (c : Fin 128) :
    broadcastTo S8192x128 (shapeCast S1x128 P6 shapeCasts_S128_S1x128) broadcasts_S1x128_S8192x128 (ix2 r c) = P6 (ix1 c) :=
  (broadcastTo_1b_ab_apply _ broadcasts_S1x128_S8192x128 r c).trans (shapeCast_a_1a_apply P6 shapeCasts_S128_S1x128 (0 : Fin 1) c)

/-- The second hidden layer at row r, from the first hidden layer's row r. -/
theorem act2_at (a1 : FVec Ideal S8192x256 .bf16) (x : Fin 256 → EReal) (r : Fin 8192) (h : ∀ k : Fin 256, a1 (ix2 r k) = x k)
    (c : Fin 128) :
    act2 P5 P6 a1 (ix2 r c) = relu (dense x (fun k c => P5 (ix2 k c)) (fun c => P6 (ix1 c)) c) := by
  unfold act2
  show max (matmul dot_S8192x256_S256x128_S8192x128_1_0_0_1_n_n none a1 (shapeCast S256x128 P5 shapeCasts_S256x128_S256x128) (constant S8192x128 .f32 0x00000000#32) (ix2 r c)
      + broadcastTo S8192x128 (shapeCast S1x128 P6 shapeCasts_S128_S1x128) broadcasts_S1x128_S8192x128 (ix2 r c)) (Ideal.ofBits .f32 0x00000000#32) = _
  rw [matmul_zero_at dot_S8192x256_S256x128_S8192x128_1_0_0_1_n_n rfl rfl rfl rfl rfl rfl, bias128_at, Ideal.ofBits_zero_f32]
  simp only [shapeCast_self, h]
  rfl

/-- The third layer's summed products at row r, from the second hidden layer's row r. -/
theorem pre3_at (a2 : FVec Ideal S8192x128 .bf16) (x : Fin 128 → EReal) (r : Fin 8192) (h : ∀ k : Fin 128, a2 (ix2 r k) = x k)
    (c : Fin 64) :
    pre3 P7 a2 (ix2 r c) = ∑ k : Fin 128, x k * P7 (ix2 k c) := by
  unfold pre3
  rw [matmul_zero_at dot_S8192x128_S128x64_S8192x64_1_0_0_1_n_n rfl rfl rfl rfl rfl rfl]
  simp only [shapeCast_self, h]

/-- The body's value before the last layer, at row r = p·256 + j and unit c: the third layer's summed products over
    the specification's second hidden layer of query row p of the block and support row j. -/
theorem pay2_at (p : Fin 32) (j : Fin 256) (r : Fin 8192) (hr : r.val = p.val * 256 + j.val) (c : Fin 64) :
    k0_pay2 (F := Ideal) P0 P1 P2 P3 P4 P5 P6 P7 (ix2 r c)
      = ∑ k : Fin 128, hidden2 (row P0 p) (row P1 j) (fun k c => P2 (ix2 k c)) (fun k c => P3 (ix2 k c)) (fun c => P4 (ix1 c))
          (fun k c => P5 (ix2 k c)) (fun c => P6 (ix1 c)) k * P7 (ix2 k c) := by
  rw [pay2_eq]
  exact pre3_at P7 _ _ r (fun k => act2_at P5 P6 _ _ r (fun k' => act1_at P0 P1 P2 P3 P4 p j r hr k') k) c

end Cert.KernelIdeal.Layers

end
-- ==== Proof.KernelScore.lean ====
/-
  The last layer as the kernel body computes it, and the block of scores one grid point leaves.

  On the flattened rows the body adds the third bias and rectifies, giving the third hidden layer; it then unflattens
  the rows to (query row of the block, support row), multiplies by the last weights laid along the 64 units, sums over
  the units, adds the one last bias and applies the logistic function.  A sum over the last axis of a [32, 256, 64]
  array at (p, j) is the sum over k of the entries (p, j, k).  So the block's entry (p, j) is the specification's score
  of query row p of the block against support row j.
-/
import proofs.«125596_j31885837205813_1_alg».proof.Proof.KernelLayers
import proofs.«125596_j31885837205813_1_alg».proof.Proof.KernelIdealValue

noncomputable section

namespace Cert.KernelIdeal.Layers

open Idealize.ShloMosaic Idealize.ShloMosaic.ValueIdx Cert.KernelIdeal Cert.KernelIdeal.Gen PairScore

variable (P0 : FVec Ideal S32x256 .bf16) (P1 P2 P3 : FVec Ideal S256x256 .bf16) (P4 : FVec Ideal S256 .f32)
  (P5 : FVec Ideal S256x128 .bf16) (P6 : FVec Ideal S128 .f32) (P7 : FVec Ideal S128x64 .bf16)
  (P8 : FVec Ideal S64 .f32) (P9 : FVec Ideal S1x64 .f32) (P10 : FVec Ideal S1 .f32)

/-- The third hidden layer, unflattened to (query row of the block, support row, unit), from the third layer's summed
    products. -/
def act3 (z : FVec Ideal S8192x64 .f32) : FVec Ideal S32x256x64 .f32 :=
  shapeCast S32x256x64 (maximumf (addf z (broadcastTo S8192x64 (shapeCast S1x64 P8 shapeCasts_S64_S1x64) broadcasts_S1x64_S8192x64))
    (broadcast S8192x64 (Scalar.ofBits .f32 0x00000000#32))) shapeCasts_S8192x64_S32x256x64

/-- The last weights laid along the units of every pair. -/
def lastW : FVec Ideal S32x256x64 .f32 :=
  broadcastTo S32x256x64 (shapeCast S1x1x64 (shapeCast S1x64 P9 shapeCasts_S1x64_S1x64) shapeCasts_S1x64_S1x1x64) broadcasts_S1x1x64_S32x256x64

/-- The last layer's products summed over the units. -/
def lastSum (z : FVec Ideal S8192x64 .f32) : FVec Ideal S32x256 .f32 :=
  multiReduction .add [2] S32x256 (mulf (act3 P8 z) (lastW P9)) 0x00000000#32 reduces_S32x256x64_S32x256 (.inl rfl) rfl

/-- The block one grid point leaves is the logistic function of that sum plus the last bias. -/
theorem block_eq (y : S32x256.Idx) :
    Cert.KernelIdeal.ValueP.E11 (F := Ideal) P0 P1 P2 P3 P4 P5 P6 P7 P8 P9 P10 y
      = Ideal.logistic (lastSum P8 P9 (k0_pay2 (F := Ideal) P0 P1 P2 P3 P4 P5 P6 P7) (Cert.KernelIdeal.ValueP.ix11_0 y)
          + P10 (Cert.KernelIdeal.ValueP.ix11_1 y)) := rfl

/-- Over result index (p, j), the source index with k put on the summed axis is (p, j, k). -/
theorem lift_units (p : Fin 32) (j : Fin 256) (k : Fin 64) :
    reduces_S32x256x64_S32x256.lift (ix2 p j) k = ix3 p j k := by
  funext a
  apply Fin.ext
  match a with
  | ⟨0, _⟩ => rfl
  | ⟨1, _⟩ => rfl
  | ⟨2, _⟩ => rfl

/-- The third hidden layer at (p, j, k), from the summed products at row r = p·256 + j. -/
theorem act3_at (z : FVec Ideal S8192x64 .f32) (p : Fin 32) (j : Fin 256) (r : Fin 8192) (hr : r.val = p.val * 256 + j.val) (k : Fin 64) :
    act3 P8 z (ix3 p j k) = relu (z (ix2 r k) + P8 (ix1 k)) := by
  unfold act3
  refine (shapeCast_apply _ _ (ix3 p j k) (ix2 r k) (by
    rw [Shape.rowMajor_val_two, Shape.rowMajor_val_three]
    show r.val * 64 + k.val = (p.val * 256 + j.val) * 64 + k.val
    rw [hr])).trans ?_
  show max (z (ix2 r k) + broadcastTo S8192x64 (shapeCast S1x64 P8 shapeCasts_S64_S1x64) broadcasts_S1x64_S8192x64 (ix2 r k)) (Ideal.ofBits .f32 0x00000000#32) = _
  rw [(broadcastTo_1b_ab_apply _ broadcasts_S1x64_S8192x64 r k).trans (shapeCast_a_1a_apply P8 shapeCasts_S64_S1x64 (0 : Fin 1) k),
    Ideal.ofBits_zero_f32]
  rfl

/-- The last weights at (p, j, k): weight k. -/
theorem lastW_at (p : Fin 32) (j : Fin 256) (k : Fin 64) : lastW P9 (ix3 p j k) = P9 (ix2 (0 : Fin 1) k) := by
  unfold lastW
  refine (broadcastTo_apply _ _ (ix3 p j k) (ix3 (0 : Fin 1) (0 : Fin 1) k) (fun a => match a with
    | ⟨0, _⟩ => by show (0 : Nat) = if (1 : Nat) = 1 then 0 else p.val; rw [if_pos rfl]
    | ⟨1, _⟩ => by show (0 : Nat) = if (1 : Nat) = 1 then 0 else j.val; rw [if_pos rfl]
    | ⟨2, _⟩ => by show k.val = if (64 : Nat) = 1 then 0 else k.val; rw [if_neg (by decide)])).trans ?_
  refine (shapeCast_ab_1ab_apply _ shapeCasts_S1x64_S1x1x64 (0 : Fin 1) (0 : Fin 1) k).trans ?_
  rw [shapeCast_self]

/-- The last layer's sum at (p, j), from the summed products of the third layer at row r = p·256 + j. -/
theorem lastSum_at (z : FVec Ideal S8192x64 .f32) (p : Fin 32) (j : Fin 256) (r : Fin 8192) (hr : r.val = p.val * 256 + j.val) :
    lastSum P8 P9 z (ix2 p j) = ∑ k : Fin 64, relu (z (ix2 r k) + P8 (ix1 k)) * P9 (ix2 (0 : Fin 1) k) := by
  unfold lastSum
  refine (Ideal.multiReduction_add_single (mulf (act3 P8 z) (lastW P9)) 0x00000000#32 reduces_S32x256x64_S32x256 (.inl rfl) rfl (ix2 p j)).trans ?_
  refine Finset.sum_congr rfl fun k _ => ?_
  show act3 P8 z (reduces_S32x256x64_S32x256.lift (ix2 p j) k) * lastW P9 (reduces_S32x256x64_S32x256.lift (ix2 p j) k) = _
  rw [lift_units p j k, act3_at P8 z p j r hr k, lastW_at P9 p j k]

/-- THE BLOCK'S ENTRY (p, j) is the score of query row p of the block against support row j. -/
theorem block_at (p : Fin 32) (j : Fin 256) :
    Cert.KernelIdeal.ValueP.E11 (F := Ideal) P0 P1 P2 P3 P4 P5 P6 P7 P8 P9 P10 (ix2 p j)
      = score (row P0 p) (row P1 j) (fun k c => P2 (ix2 k c)) (fun k c => P3 (ix2 k c)) (fun c => P4 (ix1 c))
          (fun k c => P5 (ix2 k c)) (fun c => P6 (ix1 c)) (fun k c => P7 (ix2 k c)) (fun c => P8 (ix1 c))
          (fun k => P9 (ix2 (0 : Fin 1) k)) (P10 (ix1 (0 : Fin 1))) := by
  rw [block_eq]
  have e0 : Cert.KernelIdeal.ValueP.ix11_0 (ix2 p j) = ix2 p j := by
    funext a; apply Fin.ext
    match a with
    | ⟨0, _⟩ => rfl
    | ⟨1, _⟩ => rfl
  have e1 : Cert.KernelIdeal.ValueP.ix11_1 (ix2 p j) = ix1 (0 : Fin 1) := by
    funext a; apply Fin.ext
    match a with
    | ⟨0, _⟩ => rfl
  have hr : (⟨p.val * 256 + j.val, by have := p.isLt; have := j.isLt; omega⟩ : Fin 8192).val = p.val * 256 + j.val := rfl
  rw [e0, e1, lastSum_at P8 P9 _ p j _ hr]
  simp only [pay2_at P0 P1 P2 P3 P4 P5 P6 P7 p j _ hr]
  rfl

end Cert.KernelIdeal.Layers

end
-- ==== Proof.KernelArray.lean ====
/-
  From the blocks to the whole array of scores.

  The grid has 32 points.  Point t stages rows 32·t … 32·t + 31 of the query array and writes back rows
  32·t … 32·t + 31 of the result; every other operand is staged whole at every point.  The arrays the windows read
  were written by the host before the region: the query, support and weight arrays changed to a narrower float format
  (the identity on extended reals), the first weight matrix cut into its upper and lower 256 rows, and the last weight
  column laid as a row.  So the block point t writes back is rows 32·t … of the specification's array G of the
  argument arrays, and the 32 blocks tile the result: after the run the result array is G.
-/
import proofs.«125596_j31885837205813_1_alg».proof.Proof.KernelScore
import Idealize.ShloMosaic.Lib.StableHlo.Run

set_option maxRecDepth 16384

noncomputable section

namespace Cert.KernelIdeal.Scores

open Cert.KernelIdeal Cert.KernelIdeal.Gen Idealize.ShloMosaic Idealize.ShloMosaic.TcCoe Idealize.ShloMosaic.ValueIdx
open Idealize.SL.Sem Idealize.ShloMosaic.StableHlo PairScore
open Idealize.ShloMosaic.Pipeline (Dat)

variable (m : (ℓ : Loc nD τ sig) → Buf (Elt Ideal) ℓ) (ρ : Dev nD → PrngReg)

/-! ## The index maps, decided over the 32 grid points -/

/-- The query window and the result window sit at block row t; every other window at block 0. -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

theorem point_lt (t : Fin cfg0.N) : t.val < 32 := by
  have h := t.isLt
  have hN : cfg0.N = 32 := N_0
  omega

/-- The row of the arrays that row p of point t's block is. -/
def rowOf (t : Fin cfg0.N) (p : Fin 32) : Fin 1024 := ⟨t.val * 32 + p.val, by have := point_lt t; have := p.isLt; omega⟩

/-! ## The argument arrays, and what the windows' arrays hold -/

abbrev argQ (c : Dev nD) : FVec Ideal S1024x256 .f32 := m ((c : Thread nD τ).loc main_arg0)
abbrev argS (c : Dev nD) : FVec Ideal S256x256 .f32 := m ((c : Thread nD τ).loc main_arg1)
abbrev argW1 (c : Dev nD) : FVec Ideal S512x256 .f32 := m ((c : Thread nD τ).loc main_arg3)
abbrev argB1 (c : Dev nD) : FVec Ideal S256 .f32 := m ((c : Thread nD τ).loc main_arg4)
abbrev argW2 (c : Dev nD) : FVec Ideal S256x128 .f32 := m ((c : Thread nD τ).loc main_arg5)
abbrev argB2 (c : Dev nD) : FVec Ideal S128 .f32 := m ((c : Thread nD τ).loc main_arg6)
abbrev argW3 (c : Dev nD) : FVec Ideal S128x64 .f32 := m ((c : Thread nD τ).loc main_arg7)
abbrev argB3 (c : Dev nD) : FVec Ideal S64 .f32 := m ((c : Thread nD τ).loc main_arg8)
abbrev argW4 (c : Dev nD) : FVec Ideal S64x1 .f32 := m ((c : Thread nD τ).loc main_arg9)
abbrev argB4 (c : Dev nD) : FVec Ideal S1 .f32 := m ((c : Thread nD τ).loc main_arg10)

/-- The array of all scores of the argument arrays. -/
abbrev scores (c : Dev nD) : S1024x256.Idx → EReal :=
  G (argQ m c) (argS m c) (argW1 m c) (argB1 m c) (argW2 m c) (argB2 m c) (argW3 m c) (argB3 m c) (argW4 m c) (argB4 m c)

/-- The query window's array: the query argument in the narrower format. -/
theorem V_query (c : Dev nD) : (V m c main_v4 : S1024x256.Idx → EReal) = truncf .bf16 (argQ m c) bitsLt_bf16_f32 := by
  dsimp only [Gen.V, Gen.hostOps0]; after_results

theorem V_support (c : Dev nD) : (V m c main_v5 : S256x256.Idx → EReal) = truncf .bf16 (argS m c) bitsLt_bf16_f32 := by
  dsimp only [Gen.V, Gen.hostOps0]; after_results

/-- The upper 256 rows of the first weights. -/
theorem V_upper (c : Dev nD) : (V m c main_v6 : S256x256.Idx → EReal)
    = truncf .bf16 (extractStridedSlice S256x256 ![0, 0] (argW1 m c) slices_S512x256_S256x256_0_0) bitsLt_bf16_f32 := by
  dsimp only [Gen.V, Gen.hostOps0]; after_results

/-- The lower 256 rows of the first weights. -/
theorem V_lower (c : Dev nD) : (V m c main_v7 : S256x256.Idx → EReal)
    = truncf .bf16 (extractStridedSlice S256x256 ![256, 0] (argW1 m c) slices_S512x256_S256x256_256_0) bitsLt_bf16_f32 := by
  dsimp only [Gen.V, Gen.hostOps0]; after_results

theorem V_w2 (c : Dev nD) : (V m c main_v8 : S256x128.Idx → EReal) = truncf .bf16 (argW2 m c) bitsLt_bf16_f32 := by
  dsimp only [Gen.V, Gen.hostOps0]; after_results

theorem V_w3 (c : Dev nD) : (V m c main_v9 : S128x64.Idx → EReal) = truncf .bf16 (argW3 m c) bitsLt_bf16_f32 := by
  dsimp only [Gen.V, Gen.hostOps0]; after_results

/-- The last weight column laid as a row. -/
theorem V_w4 (c : Dev nD) : (V m c main_v3 : S1x64.Idx → EReal)
    = shapeCast S1x64 (shapeCast S64 (argW4 m c) shapeCasts_S64x1_S64) shapeCasts_S64_S1x64 := by
  dsimp only [Gen.V, Gen.hostOps0]; after_results; rfl

/-! ## Each window's block at a point, in terms of the argument arrays -/

/-- Row p of point t's block of the query window is row 32·t + p of the query argument. -/
theorem blk_query (c : Dev nD) (t : Fin cfg0.N) (p : Fin 32) (k : Fin 256) :
    iblk m c 0 t (ix2 p k) = argQ m c (ix2 (rowOf t p) k) := by
  obtain ⟨-, -, e0, e1, -⟩ := idx_facts t
  show V m c main_v4 (((cfg0.win 0).blk t).view.emb (ix2 p k)) = _
  refine (congrFun (V_query m c) _).trans ?_
  show argQ m c (((cfg0.win 0).blk t).view.emb (ix2 p k)) = _
  congr 1
  funext a; apply Fin.ext
  match a with
  | ⟨0, _⟩ => show win0_0.index t (0 : Fin 2) * 32 + 1 * p.val = t.val * 32 + p.val; rw [e0]; omega
  | ⟨1, _⟩ => show win0_0.index t (1 : Fin 2) * 256 + 1 * k.val = k.val; rw [e1]; omega

/-- The support window's block is the whole support argument. -/
theorem blk_support (c : Dev nD) (t : Fin cfg0.N) (j : Fin 256) (k : Fin 256) :
    iblk m c 1 t (ix2 j k) = argS m c (ix2 j k) := by
  obtain ⟨-, -, -, -, e0, e1, -⟩ := idx_facts t
  show V m c main_v5 (((cfg0.win 1).blk t).view.emb (ix2 j k)) = _
  refine (congrFun (V_support m c) _).trans ?_
  show argS m c (((cfg0.win 1).blk t).view.emb (ix2 j k)) = _
  congr 1
  funext a; apply Fin.ext
  match a with
  | ⟨0, _⟩ => show win0_1.index t (0 : Fin 2) * 256 + 1 * j.val = j.val; rw [e0]; omega
  | ⟨1, _⟩ => show win0_1.index t (1 : Fin 2) * 256 + 1 * k.val = k.val; rw [e1]; omega

/-- The third window's block is the upper 256 rows of the first weights. -/
theorem blk_upper (c : Dev nD) (t : Fin cfg0.N) (k : Fin 256) (u : Fin 256) :
    iblk m c 2 t (ix2 k u) = upper (argW1 m c) k u := by
  obtain ⟨-, -, -, -, -, -, e0, e1, -⟩ := idx_facts t
  show V m c main_v6 (((cfg0.win 2).blk t).view.emb (ix2 k u)) = _
  refine (congrFun (V_upper m c) _).trans ?_
  show extractStridedSlice S256x256 ![0, 0] (argW1 m c) slices_S512x256_S256x256_0_0 (((cfg0.win 2).blk t).view.emb (ix2 k u)) = _
  refine extractStridedSlice_apply _ _ _ _ (ix2 (⟨k.val, by omega⟩ : Fin 512) u) (fun a => ?_)
  match a with
  | ⟨0, _⟩ => show k.val = 0 + (win0_2.index t (0 : Fin 2) * 256 + 1 * k.val); rw [e0]; omega
  | ⟨1, _⟩ => show u.val = 0 + (win0_2.index t (1 : Fin 2) * 256 + 1 * u.val); rw [e1]; omega

/-- The fourth window's block is the lower 256 rows of the first weights. -/
theorem blk_lower (c : Dev nD) (t : Fin cfg0.N) (k : Fin 256) (u : Fin 256) :
    iblk m c 3 t (ix2 k u) = lower (argW1 m c) k u := by
  obtain ⟨-, -, -, -, -, -, -, -, e0, e1, -⟩ := idx_facts t
  show V m c main_v7 (((cfg0.win 3).blk t).view.emb (ix2 k u)) = _
  refine (congrFun (V_lower m c) _).trans ?_
  show extractStridedSlice S256x256 ![256, 0] (argW1 m c) slices_S512x256_S256x256_256_0 (((cfg0.win 3).blk t).view.emb (ix2 k u)) = _
  refine extractStridedSlice_apply _ _ _ _ (ix2 (⟨256 + k.val, by omega⟩ : Fin 512) u) (fun a => ?_)
  match a with
  | ⟨0, _⟩ => show 256 + k.val = 256 + (win0_3.index t (0 : Fin 2) * 256 + 1 * k.val); rw [e0]; omega
  | ⟨1, _⟩ => show u.val = 0 + (win0_3.index t (1 : Fin 2) * 256 + 1 * u.val); rw [e1]; omega

theorem blk_b1 (c : Dev nD) (t : Fin cfg0.N) (u : Fin 256) : iblk m c 4 t (ix1 u) = argB1 m c (ix1 u) := by
  obtain ⟨-, -, -, -, -, -, -, -, -, -, e0, -⟩ := idx_facts t
  show V m c main_arg4 (((cfg0.win 4).blk t).view.emb (ix1 u)) = _
  rw [V_main_arg4]
  show argB1 m c (((cfg0.win 4).blk t).view.emb (ix1 u)) = _
  congr 1
  funext a; apply Fin.ext
  match a with
  | ⟨0, _⟩ => show win0_4.index t (0 : Fin 1) * 256 + 1 * u.val = u.val; rw [e0]; omega

theorem blk_w2 (c : Dev nD) (t : Fin cfg0.N) (k : Fin 256) (u : Fin 128) :
    iblk m c 5 t (ix2 k u) = argW2 m c (ix2 k u) := by
  obtain ⟨-, -, -, -, -, -, -, -, -, -, -, e0, e1, -⟩ := idx_facts t
  show V m c main_v8 (((cfg0.win 5).blk t).view.emb (ix2 k u)) = _
  refine (congrFun (V_w2 m c) _).trans ?_
  show argW2 m c (((cfg0.win 5).blk t).view.emb (ix2 k u)) = _
  congr 1
  funext a; apply Fin.ext
  match a with
  | ⟨0, _⟩ => show win0_5.index t (0 : Fin 2) * 256 + 1 * k.val = k.val; rw [e0]; omega
  | ⟨1, _⟩ => show win0_5.index t (1 : Fin 2) * 128 + 1 * u.val = u.val; rw [e1]; omega

theorem blk_b2 (c : Dev nD) (t : Fin cfg0.N) (u : Fin 128) : iblk m c 6 t (ix1 u) = argB2 m c (ix1 u) := by
  obtain ⟨-, -, -, -, -, -, -, -, -, -, -, -, -, e0, -⟩ := idx_facts t
  show V m c main_arg6 (((cfg0.win 6).blk t).view.emb (ix1 u)) = _
  rw [V_main_arg6]
  show argB2 m c (((cfg0.win 6).blk t).view.emb (ix1 u)) = _
  congr 1
  funext a; apply Fin.ext
  match a with
  | ⟨0, _⟩ => show win0_6.index t (0 : Fin 1) * 128 + 1 * u.val = u.val; rw [e0]; omega

theorem blk_w3 (c : Dev nD) (t : Fin cfg0.N) (k : Fin 128) (u : Fin 64) :
    iblk m c 7 t (ix2 k u) = argW3 m c (ix2 k u) := by
  obtain ⟨-, -, -, -, -, -, -, -, -, -, -, -, -, -, e0, e1, -⟩ := idx_facts t
  show V m c main_v9 (((cfg0.win 7).blk t).view.emb (ix2 k u)) = _
  refine (congrFun (V_w3 m c) _).trans ?_
  show argW3 m c (((cfg0.win 7).blk t).view.emb (ix2 k u)) = _
  congr 1
  funext a; apply Fin.ext
  match a with
  | ⟨0, _⟩ => show win0_7.index t (0 : Fin 2) * 128 + 1 * k.val = k.val; rw [e0]; omega
  | ⟨1, _⟩ => show win0_7.index t (1 : Fin 2) * 64 + 1 * u.val = u.val; rw [e1]; omega

theorem blk_b3 (c : Dev nD) (t : Fin cfg0.N) (u : Fin 64) : iblk m c 8 t (ix1 u) = argB3 m c (ix1 u) := by
  obtain ⟨-, -, -, -, -, -, -, -, -, -, -, -, -, -, -, -, e0, -⟩ := idx_facts t
  show V m c main_arg8 (((cfg0.win 8).blk t).view.emb (ix1 u)) = _
  rw [V_main_arg8]
  show argB3 m c (((cfg0.win 8).blk t).view.emb (ix1 u)) = _
  congr 1
  funext a; apply Fin.ext
  match a with
  | ⟨0, _⟩ => show win0_8.index t (0 : Fin 1) * 64 + 1 * u.val = u.val; rw [e0]; omega

/-- The last weights' window holds the weight column laid as a row. -/
theorem blk_w4 (c : Dev nD) (t : Fin cfg0.N) (k : Fin 64) :
    iblk m c 9 t (ix2 (0 : Fin 1) k) = argW4 m c (ix2 k (0 : Fin 1)) := by
  obtain ⟨-, -, -, -, -, -, -, -, -, -, -, -, -, -, -, -, -, e0, e1, -⟩ := idx_facts t
  show V m c main_v3 (((cfg0.win 9).blk t).view.emb (ix2 (0 : Fin 1) k)) = _
  refine (congrFun (V_w4 m c) _).trans ?_
  have ee : ((cfg0.win 9).blk t).view.emb (ix2 (0 : Fin 1) k) = ix2 (0 : Fin 1) k := by
    funext a; apply Fin.ext
    match a with
    | ⟨0, _⟩ => show win0_9.index t (0 : Fin 2) * 1 + 1 * 0 = 0; rw [e0]
    | ⟨1, _⟩ => show win0_9.index t (1 : Fin 2) * 64 + 1 * k.val = k.val; rw [e1]; omega
  rw [ee]
  refine (shapeCast_a_1a_apply _ shapeCasts_S64_S1x64 (0 : Fin 1) k).trans ?_
  exact shapeCast_apply _ _ (ix1 k) (ix2 k (0 : Fin 1)) (by
    rw [Shape.rowMajor_val_two, Shape.rowMajor_val_one]
    show k.val * 1 + 0 = k.val
    omega)

theorem blk_b4 (c : Dev nD) (t : Fin cfg0.N) : iblk m c 10 t (ix1 (0 : Fin 1)) = argB4 m c (ix1 (0 : Fin 1)) := by
  obtain ⟨-, -, -, -, -, -, -, -, -, -, -, -, -, -, -, -, -, -, -, e0⟩ := idx_facts t
  show V m c main_arg10 (((cfg0.win 10).blk t).view.emb (ix1 (0 : Fin 1))) = _
  rw [V_main_arg10]
  show argB4 m c (((cfg0.win 10).blk t).view.emb (ix1 (0 : Fin 1))) = _
  congr 1
  funext a; apply Fin.ext
  match a with
  | ⟨0, _⟩ => show win0_10.index t (0 : Fin 1) * 1 + 1 * 0 = 0; rw [e0]

/-! ## What a point writes back, the cover, and the array after the run -/

/-- Row p, column j of point t's block of the result is row 32·t + p, column j of the array. -/
theorem emb_out (t : Fin cfg0.N) (p : Fin 32) (j : Fin 256) :
    ((cfg0.win 11).blk t).view.emb (ix2 p j) = ix2 (rowOf t p) j := by
  obtain ⟨e0, e1, -⟩ := idx_facts t
  funext a; apply Fin.ext
  match a with
  | ⟨0, _⟩ => show win0_11.index t (0 : Fin 2) * 32 + 1 * p.val = t.val * 32 + p.val; rw [e0]; omega
  | ⟨1, _⟩ => show win0_11.index t (1 : Fin 2) * 256 + 1 * j.val = j.val; rw [e1]; omega

theorem hz2 : (![0, 0] : Fin 2 → Nat) = fun _ => 0 := funext fun a => by fin_cases a <;> rfl
theorem hz1 : (![0] : Fin 1 → Nat) = fun _ => 0 := funext fun a => by fin_cases a; rfl

/-- WHAT POINT t WRITES BACK is rows 32·t … 32·t + 31 of the array of all scores. -/
theorem flushed_eq (c : Dev nD) (t : Fin cfg0.N) :
    (dats m 0 c).flushed 11 t = ((cfg0.win 11).blk t).view.read (Elt Ideal) (scores m c) := by
  rw [Cert.KernelIdeal.ValueP.flushed11]
  unfold out0_11
  simp only [View.ld_unit_zero (S := S32x256) hz2, View.ld_unit_zero (S := S256x256) hz2, View.ld_unit_zero (S := S256) hz1,
    View.ld_unit_zero (S := S256x128) hz2, View.ld_unit_zero (S := S128) hz1, View.ld_unit_zero (S := S128x64) hz2,
    View.ld_unit_zero (S := S64) hz1, View.ld_unit_zero (S := S1x64) hz2, View.ld_unit_zero (S := S1) hz1]
  funext y
  obtain ⟨p, j, rfl⟩ : ∃ (p : Fin 32) (j : Fin 256), y = ix2 p j := ⟨y 0, y 1, eq_ix2 y⟩
  show (View.canon [⟨r0_0, k0_pay1 (k0_pay2 (iblk m c 0 t) (iblk m c 1 t) (iblk m c 2 t) (iblk m c 3 t) (iblk m c 4 t) (iblk m c 5 t) (iblk m c 6 t) (iblk m c 7 t)) (k0_pay3 (iblk m c 8 t)) (iblk m c 9 t) (iblk m c 10 t)⟩] : Vec Ideal S32x256 .f32) (ix2 p j)
      = scores m c (((cfg0.win 11).blk t).view.emb (ix2 p j))
  refine (Cert.KernelIdeal.ValueP.canon11_eq (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j)).trans ?_
  refine (Cert.KernelIdeal.Layers.block_at (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_
  rw [emb_out t p j]
  show _ = score (row (argQ m c) (rowOf t p)) (row (argS m c) j) (upper (argW1 m c)) (lower (argW1 m c)) (fun u => argB1 m c (ix1 u))
      (fun k u => argW2 m c (ix2 k u)) (fun u => argB2 m c (ix1 u)) (fun k u => argW3 m c (ix2 k u)) (fun u => argB3 m c (ix1 u))
      (fun k => argW4 m c (ix2 k (0 : Fin 1))) (argB4 m c (ix1 (0 : Fin 1)))
  have h0 : row (iblk m c 0 t) p = row (argQ m c) (rowOf t p) := funext fun k => blk_query m c t p k
  have h1 : row (iblk m c 1 t) j = row (argS m c) j := funext fun k => blk_support m c t j k
  have h2 : (fun k u => iblk m c 2 t (ix2 k u)) = upper (argW1 m c) := funext fun k => funext fun u => blk_upper m c t k u
  have h3 : (fun k u => iblk m c 3 t (ix2 k u)) = lower (argW1 m c) := funext fun k => funext fun u => blk_lower m c t k u
  have h4 : (fun u => iblk m c 4 t (ix1 u)) = fun u => argB1 m c (ix1 u) := funext fun u => blk_b1 m c t u
  have h5 : (fun k u => iblk m c 5 t (ix2 k u)) = fun k u => argW2 m c (ix2 k u) := funext fun k => funext fun u => blk_w2 m c t k u
  have h6 : (fun u => iblk m c 6 t (ix1 u)) = fun u => argB2 m c (ix1 u) := funext fun u => blk_b2 m c t u
  have h7 : (fun k u => iblk m c 7 t (ix2 k u)) = fun k u => argW3 m c (ix2 k u) := funext fun k => funext fun u => blk_w3 m c t k u
  have h8 : (fun u => iblk m c 8 t (ix1 u)) = fun u => argB3 m c (ix1 u) := funext fun u => blk_b3 m c t u
  have h9 : (fun k => iblk m c 9 t (ix2 (0 : Fin 1) k)) = fun k => argW4 m c (ix2 k (0 : Fin 1)) := funext fun k => blk_w4 m c t k
  have h10 : iblk m c 10 t (ix1 (0 : Fin 1)) = argB4 m c (ix1 (0 : Fin 1)) := blk_b4 m c t
  rw [h0, h1, h2, h3, h4, h5, h6, h7, h8, h9, h10]

/-- An index of the result array is in point t's block iff its row lies in 32·t … 32·t + 31. -/
theorem mem_blk (t : Fin cfg0.N) (i : S1024x256.Idx) :
    i ∈ ((cfg0.win 11).blk t).view.set ↔ ∀ a : Fin 2, win0_11.index t a * S32x256.size a ≤ (i a).val ∧ (i a).val < win0_11.index t a * S32x256.size a + S32x256.size a := by
  show i ∈ ((View.whole main_v10).slice (win0_11.rect t)).set ↔ _
  rw [View.set_slice_whole, Rect.mem_set_unit]
  exact Iff.rfl

/-- The 32 blocks tile the result: row r lies in the block of point r / 32. -/
theorem cover (i : S1024x256.Idx) :
    ∃ t : Fin cfg0.N, (cfg0.win 11).flush t = true ∧ i ∈ ((cfg0.win 11).blk t).view.set := by
  have hi0 : (i 0).val < 1024 := (i 0).isLt
  have hi1 : (i 1).val < 256 := (i 1).isLt
  have hN : cfg0.N = 32 := N_0
  have hlt : (i 0).val / 32 < cfg0.N := by rw [hN]; omega
  refine ⟨⟨(i 0).val / 32, hlt⟩, flush0_11 _, ?_⟩
  rw [mem_blk]
  obtain ⟨e0, e1, -⟩ := idx_facts ⟨(i 0).val / 32, hlt⟩
  intro a
  match a with
  | ⟨0, _⟩ =>
    show win0_11.index ⟨(i 0).val / 32, hlt⟩ (0 : Fin 2) * 32 ≤ (i 0).val ∧ (i 0).val < win0_11.index ⟨(i 0).val / 32, hlt⟩ (0 : Fin 2) * 32 + 32
    rw [e0]
    show (i 0).val / 32 * 32 ≤ (i 0).val ∧ (i 0).val < (i 0).val / 32 * 32 + 32
    omega
  | ⟨1, _⟩ =>
    show win0_11.index ⟨(i 0).val / 32, hlt⟩ (1 : Fin 2) * 256 ≤ (i 1).val ∧ (i 1).val < win0_11.index ⟨(i 0).val / 32, hlt⟩ (1 : Fin 2) * 256 + 256
    rw [e1]
    omega

/-- THE RESULT ARRAY after the run is the array of all scores of the argument arrays. -/
theorem final (c : Dev nD) : (dats m 0 c).arrAt 11 cfg0.N = scores m c :=
  (dats m 0 c).arrAt_eq_of_cover 11 (scores m c) (fun t _ => flushed_eq m c t) cover

/-- The kernel's run: it terminates without a fault, the result array holds all the scores, the arguments are unchanged. -/
theorem run : θ_run defs (onTc (τ := τ) (main (F := Ideal))) ⟨m, fun _ => 0, ρ⟩ fun r => ∀ c : Dev nD,
      r.2.mem ((c : Thread nD τ).loc main_v10) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.ValueP.run_blocks m ρ)

end Cert.KernelIdeal.Scores

end
-- ==== Proof.RefScore.lean ====
/-
  The reference program's result, read one element at a time, is the array of all pair scores.

  The program scores every pair (query row p, support row j).  It first lays the pairs out as the rows of one long
  matrix: row p·256 + j holds the 512 numbers [q_p, s_j], the query row followed by the support row.  Then it runs
  four affine layers on every row, the first three followed by x ↦ max(x, 0), the last one by
  x ↦ 1 / (1 + e^{-x}), and folds the 262144 results back into a 1024 × 256 array, entry (p, j) coming from row
  p·256 + j.

  Read at one entry, each stage is a function of the previous stage's entries in the same row:

    • an entry of the long matrix at (p·256 + j, k) is q_p[k] for k < 256 and s_j[k - 256] for k ≥ 256: the
      flat position (p·256 + j)·512 + k has quotient p by 131072, then j by 512 modulo 256, and remainder k by 512;
    • the first layer's inner product over 512 terms is the sum of its first 256 terms, which only see q_p and
      the upper 256 rows of the weights, and its last 256 terms, which only see s_j and the lower 256 rows;
    • each later layer's inner product runs over the previous layer's entries of the same row;
    • the rectifier's threshold is the word 0x00000000, the number 0, and the two constants of the last stage are
      the word 0x3F800000, the number 1, so the last stage is the logistic function as the specification spells it.
-/
import proofs.«125596_j31885837205813_1_alg».proof.Proof.Gen.ReferenceIdeal.Read
import proofs.«125596_j31885837205813_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefScore

open Idealize.ShloMosaic Idealize.ShloMosaic.ValueIdx Cert.ReferenceIdeal

/-- The long matrix at a column below 256: position (p·256 + j)·512 + k of the joined array has coordinates
    (p, j, k), the joined array reads its first piece there, and the first piece, the query array repeated along
    the support axis, holds q_p[k]. -/
theorem v5_left (x0 : (⟨S1024x256, .f32⟩ : BufTy).Contents (Elt Ideal)) (x1 : (⟨S256x256, .f32⟩ : BufTy).Contents (Elt Ideal))
    (r : Fin 262144) (p : Fin 1024) (j : Fin 256) (hr : r.val = p.val * 256 + j.val) (k : Fin 256) :
    Read.val_main_v5 (F := Ideal) x0 x1 (ix2 r (⟨k.val, by omega⟩ : Fin 512)) = x0 (ix2 p k) := by
  refine (Read.val_main_v5_apply x0 x1 _).trans ?_
  unfold Read.val_main_v4
  refine (concatenate_pair_apply_left (t := S1024x256x512) (s₁ := S1024x256x256) (s₂ := S1024x256x256) 2 (Read.val_main_v1 (F := Ideal) x0) (Read.val_main_v3 (F := Ideal) x1) Gen.concatenates_S1024x256x256_S1024x256x256_S1024x256x512_d2 _ rfl (ix3 p j k) ?_).trans ?_
  · intro b
    match b with
    | ⟨0, _⟩ => show p.val = (r.val * 512 + k.val) / 131072; omega
    | ⟨1, _⟩ => show j.val = (r.val * 512 + k.val) / 512 % 256; omega
    | ⟨2, _⟩ => show k.val = (r.val * 512 + k.val) % 512; omega
  · refine (Read.val_main_v1_apply x0 _).trans ?_
    refine (Read.val_main_v0_apply x0 _).trans ?_
    exact congrArg x0 (by funext a; match a with | ⟨0, _⟩ => rfl | ⟨1, _⟩ => rfl)

/-- The long matrix at a column 256 + k: position (p·256 + j)·512 + 256 + k has coordinates (p, j, 256 + k), the
    joined array reads its second piece at (p, j, k), and the second piece, the support array repeated along the
    query axis, holds s_j[k]. -/
theorem v5_right (x0 : (⟨S1024x256, .f32⟩ : BufTy).Contents (Elt Ideal)) (x1 : (⟨S256x256, .f32⟩ : BufTy).Contents (Elt Ideal))
    (r : Fin 262144) (p : Fin 1024) (j : Fin 256) (hr : r.val = p.val * 256 + j.val) (k : Fin 256) :
    Read.val_main_v5 (F := Ideal) x0 x1 (ix2 r (⟨256 + k.val, by omega⟩ : Fin 512)) = x1 (ix2 j k) := by
  refine (Read.val_main_v5_apply x0 x1 _).trans ?_
  unfold Read.val_main_v4
  refine (concatenate_pair_apply_right (t := S1024x256x512) (s₁ := S1024x256x256) (s₂ := S1024x256x256) 2 (Read.val_main_v1 (F := Ideal) x0) (Read.val_main_v3 (F := Ideal) x1) Gen.concatenates_S1024x256x256_S1024x256x256_S1024x256x512_d2 _ rfl rfl (ix3 p j k) ?_ ?_).trans ?_
  · intro b hb
    match b, hb with
    | ⟨0, _⟩, _ => show p.val = (r.val * 512 + (256 + k.val)) / 131072; omega
    | ⟨1, _⟩, _ => show j.val = (r.val * 512 + (256 + k.val)) / 512 % 256; omega
    | ⟨2, _⟩, hb => exact absurd rfl hb
  · show k.val + 256 = (r.val * 512 + (256 + k.val)) % 512; omega
  · refine (Read.val_main_v3_apply x1 _).trans ?_
    refine (Read.val_main_v2_apply x1 _).trans ?_
    exact congrArg x1 (by funext a; match a with | ⟨0, _⟩ => rfl | ⟨1, _⟩ => rfl)

/-- First layer at row p·256 + j.  The inner product over 512 columns splits into the columns below 256, where
    the row holds q_p and meets the upper half of the weights, and the columns from 256 on, where it holds s_j
    and meets the lower half; adding the bias and taking the maximum with 0 gives the first hidden layer. -/
theorem layer1 (x0 : (⟨S1024x256, .f32⟩ : BufTy).Contents (Elt Ideal)) (x1 : (⟨S256x256, .f32⟩ : BufTy).Contents (Elt Ideal))
    (x3 : (⟨S512x256, .f32⟩ : BufTy).Contents (Elt Ideal)) (x4 : (⟨S256, .f32⟩ : BufTy).Contents (Elt Ideal))
    (r : Fin 262144) (p : Fin 1024) (j : Fin 256) (hr : r.val = p.val * 256 + j.val) (c : Fin 256) :
    Read.val_main_v10 (F := Ideal) x0 x1 x3 x4 (ix2 r c)
      = PairScore.hidden1 (PairScore.row x0 p) (PairScore.row x1 j) (PairScore.upper x3) (PairScore.lower x3)
          (fun c => x4 (ix1 c)) c := by
  have h6 : Read.val_main_v6 (F := Ideal) x0 x1 x3 (ix2 r c)
      = (∑ k : Fin 256, x0 (ix2 p k) * x3 (ix2 (⟨k.val, by omega⟩ : Fin 512) c))
        + ∑ k : Fin 256, x1 (ix2 j k) * x3 (ix2 (⟨256 + k.val, by omega⟩ : Fin 512) c) := by
    refine (Read.val_main_v6_apply x0 x1 x3 _).trans ?_
    refine (PairScore.sum_split _).trans ?_
    refine congrArg₂ (· + ·) (Finset.sum_congr rfl fun k _ => ?_) (Finset.sum_congr rfl fun k _ => ?_)
    · have el : Read.lidx_main_v6 (ix2 r c) (⟨k.val, by omega⟩ : Fin 512) = ix2 r (⟨k.val, by omega⟩ : Fin 512) := by
        funext a; match a with | ⟨0, _⟩ => rfl | ⟨1, _⟩ => rfl
      have er : Read.ridx_main_v6 (ix2 r c) (⟨k.val, by omega⟩ : Fin 512) = ix2 (⟨k.val, by omega⟩ : Fin 512) c := by
        funext a; match a with | ⟨0, _⟩ => rfl | ⟨1, _⟩ => rfl
      show Read.val_main_v5 (F := Ideal) x0 x1 (Read.lidx_main_v6 (ix2 r c) (⟨k.val, by omega⟩ : Fin 512))
          * x3 (Read.ridx_main_v6 (ix2 r c) (⟨k.val, by omega⟩ : Fin 512)) = _
      rw [el, er, v5_left x0 x1 r p j hr k]
    · have el : Read.lidx_main_v6 (ix2 r c) (⟨256 + k.val, by omega⟩ : Fin 512) = ix2 r (⟨256 + k.val, by omega⟩ : Fin 512) := by
        funext a; match a with | ⟨0, _⟩ => rfl | ⟨1, _⟩ => rfl
      have er : Read.ridx_main_v6 (ix2 r c) (⟨256 + k.val, by omega⟩ : Fin 512) = ix2 (⟨256 + k.val, by omega⟩ : Fin 512) c := by
        funext a; match a with | ⟨0, _⟩ => rfl | ⟨1, _⟩ => rfl
      show Read.val_main_v5 (F := Ideal) x0 x1 (Read.lidx_main_v6 (ix2 r c) (⟨256 + k.val, by omega⟩ : Fin 512))
          * x3 (Read.ridx_main_v6 (ix2 r c) (⟨256 + k.val, by omega⟩ : Fin 512)) = _
      rw [el, er, v5_right x0 x1 r p j hr k]
  have h8 : Read.val_main_v8 (F := Ideal) x4 (ix2 r c) = x4 (ix1 c) := by
    refine (Read.val_main_v8_apply x4 _).trans ?_
    refine (Read.val_main_v7_apply x4 _).trans ?_
    exact congrArg x4 (by funext a; match a with | ⟨0, _⟩ => rfl)
  have h0 : Read.val_main_call0_v0 (F := Ideal) (ix2 r c) = 0 := by
    refine (Read.val_main_call0_v0_apply _).trans ?_
    exact Ideal.ofBits_zero_f32
  show max (Read.val_main_v6 (F := Ideal) x0 x1 x3 (ix2 r c) + Read.val_main_v8 (F := Ideal) x4 (ix2 r c))
      (Read.val_main_call0_v0 (F := Ideal) (ix2 r c)) = _
  rw [h6, h8, h0]
  rfl

/-- Second layer at row p·256 + j: the inner product of the row's first hidden layer with a column of the
    second weight matrix, plus the bias, rectified. -/
theorem layer2 (x0 : (⟨S1024x256, .f32⟩ : BufTy).Contents (Elt Ideal)) (x1 : (⟨S256x256, .f32⟩ : BufTy).Contents (Elt Ideal))
    (x3 : (⟨S512x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (r : Fin 262144) (p : Fin 1024) (j : Fin 256) (hr : r.val = p.val * 256 + j.val) (c : Fin 128) :
    Read.val_main_v15 (F := Ideal) x0 x1 x3 x4 x5 x6 (ix2 r c)
      = PairScore.hidden2 (PairScore.row x0 p) (PairScore.row x1 j) (PairScore.upper x3) (PairScore.lower x3)
          (fun c => x4 (ix1 c)) (fun k c => x5 (ix2 k c)) (fun c => x6 (ix1 c)) c := by
  have h11 : Read.val_main_v11 (F := Ideal) x0 x1 x3 x4 x5 (ix2 r c)
      = ∑ k : Fin 256, PairScore.hidden1 (PairScore.row x0 p) (PairScore.row x1 j) (PairScore.upper x3) (PairScore.lower x3)
          (fun c => x4 (ix1 c)) k * x5 (ix2 k c) := by
    refine (Read.val_main_v11_apply x0 x1 x3 x4 x5 _).trans ?_
    refine Finset.sum_congr rfl fun k _ => ?_
    have el : Read.lidx_main_v11 (ix2 r c) k = ix2 r k := by
      funext a; match a with | ⟨0, _⟩ => rfl | ⟨1, _⟩ => rfl
    have er : Read.ridx_main_v11 (ix2 r c) k = ix2 k c := by
      funext a; match a with | ⟨0, _⟩ => rfl | ⟨1, _⟩ => rfl
    rw [el, er, layer1 x0 x1 x3 x4 r p j hr k]
  have h13 : Read.val_main_v13 (F := Ideal) x6 (ix2 r c) = x6 (ix1 c) := by
    refine (Read.val_main_v13_apply x6 _).trans ?_
    refine (Read.val_main_v12_apply x6 _).trans ?_
    exact congrArg x6 (by funext a; match a with | ⟨0, _⟩ => rfl)
  have h0 : Read.val_main_call1_v0 (F := Ideal) (ix2 r c) = 0 := by
    refine (Read.val_main_call1_v0_apply _).trans ?_
    exact Ideal.ofBits_zero_f32
  show max (Read.val_main_v11 (F := Ideal) x0 x1 x3 x4 x5 (ix2 r c) + Read.val_main_v13 (F := Ideal) x6 (ix2 r c))
      (Read.val_main_call1_v0 (F := Ideal) (ix2 r c)) = _
  rw [h11, h13, h0]
  rfl

/-- Third layer at row p·256 + j: the same with the second hidden layer and the third weight matrix. -/
theorem layer3 (x0 : (⟨S1024x256, .f32⟩ : BufTy).Contents (Elt Ideal)) (x1 : (⟨S256x256, .f32⟩ : BufTy).Contents (Elt Ideal))
    (x3 : (⟨S512x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal))
    (r : Fin 262144) (p : Fin 1024) (j : Fin 256) (hr : r.val = p.val * 256 + j.val) (c : Fin 64) :
    Read.val_main_v20 (F := Ideal) x0 x1 x3 x4 x5 x6 x7 x8 (ix2 r c)
      = PairScore.hidden3 (PairScore.row x0 p) (PairScore.row x1 j) (PairScore.upper x3) (PairScore.lower x3)
          (fun c => x4 (ix1 c)) (fun k c => x5 (ix2 k c)) (fun c => x6 (ix1 c)) (fun k c => x7 (ix2 k c))
          (fun c => x8 (ix1 c)) c := by
  have h16 : Read.val_main_v16 (F := Ideal) x0 x1 x3 x4 x5 x6 x7 (ix2 r c)
      = ∑ k : Fin 128, PairScore.hidden2 (PairScore.row x0 p) (PairScore.row x1 j) (PairScore.upper x3) (PairScore.lower x3)
          (fun c => x4 (ix1 c)) (fun k c => x5 (ix2 k c)) (fun c => x6 (ix1 c)) k * x7 (ix2 k c) := by
    refine (Read.val_main_v16_apply x0 x1 x3 x4 x5 x6 x7 _).trans ?_
    refine Finset.sum_congr rfl fun k _ => ?_
    have el : Read.lidx_main_v16 (ix2 r c) k = ix2 r k := by
      funext a; match a with | ⟨0, _⟩ => rfl | ⟨1, _⟩ => rfl
    have er : Read.ridx_main_v16 (ix2 r c) k = ix2 k c := by
      funext a; match a with | ⟨0, _⟩ => rfl | ⟨1, _⟩ => rfl
    rw [el, er, layer2 x0 x1 x3 x4 x5 x6 r p j hr k]
  have h18 : Read.val_main_v18 (F := Ideal) x8 (ix2 r c) = x8 (ix1 c) := by
    refine (Read.val_main_v18_apply x8 _).trans ?_
    refine (Read.val_main_v17_apply x8 _).trans ?_
    exact congrArg x8 (by funext a; match a with | ⟨0, _⟩ => rfl)
  have h0 : Read.val_main_call2_v0 (F := Ideal) (ix2 r c) = 0 := by
    refine (Read.val_main_call2_v0_apply _).trans ?_
    exact Ideal.ofBits_zero_f32
  show max (Read.val_main_v16 (F := Ideal) x0 x1 x3 x4 x5 x6 x7 (ix2 r c) + Read.val_main_v18 (F := Ideal) x8 (ix2 r c))
      (Read.val_main_call2_v0 (F := Ideal) (ix2 r c)) = _
  rw [h16, h18, h0]
  rfl

/-- The result at (p, j) is row p·256 + j of the last stage: the inner product of the third hidden layer with the
    one column of the last weights, plus the bias, sent through 1 / (1 + e^{-x}) with both constants equal to 1. -/
theorem out_at (x0 : (⟨S1024x256, .f32⟩ : BufTy).Contents (Elt Ideal)) (x1 : (⟨S256x256, .f32⟩ : BufTy).Contents (Elt Ideal))
    (x3 : (⟨S512x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal))
    (x9 : (⟨S64x1, .f32⟩ : BufTy).Contents (Elt Ideal)) (x10 : (⟨S1, .f32⟩ : BufTy).Contents (Elt Ideal))
    (p : Fin 1024) (j : Fin 256) :
    Read.val_main_v31 (F := Ideal) x0 x1 x3 x4 x5 x6 x7 x8 x9 x10 (ix2 p j)
      = PairScore.scoreAt x0 x1 x3 x4 x5 x6 x7 x8 x9 x10 p j := by
  obtain ⟨r, hr⟩ : ∃ r : Fin 262144, r.val = p.val * 256 + j.val := ⟨⟨p.val * 256 + j.val, by omega⟩, rfl⟩
  have ei : Read.idx_main_v31 (ix2 p j) = ix2 r (0 : Fin 1) := by
    funext a
    match a with
    | ⟨0, _⟩ => exact Fin.ext ((Nat.div_one _).trans hr.symm)
    | ⟨1, _⟩ => rfl
  refine (Read.val_main_v31_apply x0 x1 x3 x4 x5 x6 x7 x8 x9 x10 _).trans ?_
  rw [ei]
  have h21 : Read.val_main_v21 (F := Ideal) x0 x1 x3 x4 x5 x6 x7 x8 x9 (ix2 r (0 : Fin 1))
      = ∑ k : Fin 64, PairScore.hidden3 (PairScore.row x0 p) (PairScore.row x1 j) (PairScore.upper x3) (PairScore.lower x3)
          (fun c => x4 (ix1 c)) (fun k c => x5 (ix2 k c)) (fun c => x6 (ix1 c)) (fun k c => x7 (ix2 k c))
          (fun c => x8 (ix1 c)) k * x9 (ix2 k (0 : Fin 1)) := by
    refine (Read.val_main_v21_apply x0 x1 x3 x4 x5 x6 x7 x8 x9 _).trans ?_
    refine Finset.sum_congr rfl fun k _ => ?_
    have el : Read.lidx_main_v21 (ix2 r (0 : Fin 1)) k = ix2 r k := by
      funext a; match a with | ⟨0, _⟩ => rfl | ⟨1, _⟩ => rfl
    have er : Read.ridx_main_v21 (ix2 r (0 : Fin 1)) k = ix2 k (0 : Fin 1) := by
      funext a; match a with | ⟨0, _⟩ => rfl | ⟨1, _⟩ => rfl
    rw [el, er, layer3 x0 x1 x3 x4 x5 x6 x7 x8 r p j hr k]
  have h23 : Read.val_main_v23 (F := Ideal) x10 (ix2 r (0 : Fin 1)) = x10 (ix1 (0 : Fin 1)) := by
    refine (Read.val_main_v23_apply x10 _).trans ?_
    refine (Read.val_main_v22_apply x10 _).trans ?_
    exact congrArg x10 (by funext a; match a with | ⟨0, _⟩ => rfl)
  have h27 : Read.val_main_v27 (F := Ideal) (ix2 r (0 : Fin 1)) = 1 :=
    (Read.val_main_v27_apply _).trans Ideal.ofBits_one_f32
  have h29 : Read.val_main_v29 (F := Ideal) (ix2 r (0 : Fin 1)) = 1 :=
    (Read.val_main_v29_apply _).trans Ideal.ofBits_one_f32
  show Ideal.div (Read.val_main_v29 (F := Ideal) (ix2 r (0 : Fin 1)))
      (Read.val_main_v27 (F := Ideal) (ix2 r (0 : Fin 1))
        + Ideal.exp (-(Read.val_main_v21 (F := Ideal) x0 x1 x3 x4 x5 x6 x7 x8 x9 (ix2 r (0 : Fin 1))
            + Read.val_main_v23 (F := Ideal) x10 (ix2 r (0 : Fin 1))))) = _
  rw [h21, h23, h27, h29]
  rfl

/-- The reference's result is the array of all pair scores: the two agree at every entry (p, j). -/
theorem val_eq_G (x0 : FVec Ideal S1024x256 .f32) (x1 : FVec Ideal S256x256 .f32) (x3 : FVec Ideal S512x256 .f32)
    (x4 : FVec Ideal S256 .f32) (x5 : FVec Ideal S256x128 .f32) (x6 : FVec Ideal S128 .f32)
    (x7 : FVec Ideal S128x64 .f32) (x8 : FVec Ideal S64 .f32) (x9 : FVec Ideal S64x1 .f32)
    (x10 : FVec Ideal S1 .f32) :
    Cert.ReferenceIdeal.Read.val_main_v31 (F := Ideal) x0 x1 x3 x4 x5 x6 x7 x8 x9 x10
      = PairScore.G x0 x1 x3 x4 x5 x6 x7 x8 x9 x10 := by
  funext i
  obtain ⟨p, j, rfl⟩ : ∃ (p : Fin 1024) (j : Fin 256), i = ix2 p j := ⟨i 0, i 1, eq_ix2 i⟩
  exact (out_at x0 x1 x3 x4 x5 x6 x7 x8 x9 x10 p j).trans (PairScore.G_ix2 x0 x1 x3 x4 x5 x6 x7 x8 x9 x10 p j).symm

end Cert.ReferenceIdeal.RefScore

end
-- ==== Proof.lean ====
/-
  The kernel scores every pair of a query row and a support row with a four-layer network: from the concatenated row
  [q, s] three affine layers, each followed by x ↦ max(x, 0), then an affine layer with one output and the logistic
  function 1 / (1 + e^{-x}).  The reference does this on the 262144 concatenated rows laid out as one long matrix.
  The kernel never forms the concatenation: it multiplies the query rows with the upper 256 rows of the first weights
  and the support rows with the lower 256 rows, and adds the two products pairwise; a sum of 512 products is the sum
  of its first 256 and its last 256, which holds on the extended reals without any finiteness, so the precondition is
  not used.  The kernel's last layer is a product with the weights followed by a sum over the 64 units, which is the
  reference's inner product with the one weight column; the kernel's logistic operation and the reference's
  1 / (1 + e^{-x}), its two constants being the number 1, are one function of the extended reals.  Changes of float
  format are the identity there.

  Both programs therefore end with the array G of the specification (Proof/Spec.lean): the kernel by its 32 grid
  points each writing 32 rows of G (Proof/KernelLayers.lean, Proof/KernelScore.lean, Proof/KernelArray.lean), the
  reference entry by entry (Proof/RefScore.lean).  The three frame claims are the two generated frame runs and the
  reference's run with its result dropped; the idealization rewrote no operation, so that claim is trivial.
-/
import proofs.«125596_j31885837205813_1_alg».proof.Defs
import proofs.«125596_j31885837205813_1_alg».proof.Proof.Gen.Kernel
import proofs.«125596_j31885837205813_1_alg».proof.Proof.Gen.Kernel.Skeleton
import proofs.«125596_j31885837205813_1_alg».proof.Proof.Gen.Kernel.Launch
import proofs.«125596_j31885837205813_1_alg».proof.Proof.Gen.Kernel.Points
import proofs.«125596_j31885837205813_1_alg».proof.Proof.Gen.Kernel.Frame
import proofs.«125596_j31885837205813_1_alg».proof.Proof.Gen.KernelIdeal
import proofs.«125596_j31885837205813_1_alg».proof.Proof.Gen.KernelIdeal.Skeleton
import proofs.«125596_j31885837205813_1_alg».proof.Proof.Gen.KernelIdeal.Launch
import proofs.«125596_j31885837205813_1_alg».proof.Proof.Gen.KernelIdeal.Points
import proofs.«125596_j31885837205813_1_alg».proof.Proof.Gen.KernelIdeal.Frame
import proofs.«125596_j31885837205813_1_alg».proof.Proof.Gen.ReferenceIdeal
import proofs.«125596_j31885837205813_1_alg».proof.Proof.Gen.Pre_finite_inputs
import proofs.«125596_j31885837205813_1_alg».proof.Proof.Gen.ReferenceIdeal.Run
import proofs.«125596_j31885837205813_1_alg».proof.Proof.Gen.ReferenceIdeal.Read
import proofs.«125596_j31885837205813_1_alg».proof.Proof.KernelArray
import proofs.«125596_j31885837205813_1_alg».proof.Proof.RefScore
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- The reference's run, with what it says of the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the array of all pair scores of those
    arguments: the kernel by its blocks, the reference entry by entry. -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefScore.val_eq_G]
  obtain ⟨h0, h1, -, h3, h4, h5, h6, h7, h8, h9, h10⟩ := hagree c
  rw [h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
